-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x32 : Shape := ⟨2, ![2000000, 32]⟩
abbrev S64x32 : Shape := ⟨2, ![64, 32]⟩
abbrev S64x64 : Shape := ⟨2, ![64, 64]⟩
abbrev S16x64 : Shape := ⟨2, ![16, 64]⟩
abbrev S_ : Shape := ⟨0, ![]⟩

class Facts : Prop where
  bcast_S_S2000000x32 : S_.BroadcastsInDim S2000000x32 (![] : Fin 0 → Fin S2000000x32.rank)
  reducesTo_S2000000x32_S_d0_1 : S2000000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  main_v18

def fn {F : FTy → Type} [FloatOps F] (main_arg0 : FVec F S2000000x32 .f32) (main_arg1 : FVec F S64x32 .f32) (main_arg2 : FVec F S64x64 .f32) (main_arg3 : FVec F S16x64 .f32) : IVec S_ 1 :=
  let main_v0 : FVec F S2000000x32 .f32 := Host.absf main_arg0
  let main_cst : FVec F S_ .f32 := constant S_ .f32 0x7F800000#32
  let main_v1 : FVec F S2000000x32 .f32 := broadcastInDim S2000000x32 ![] bcast_S_S2000000x32 main_cst
  let main_v2 : IVec S2000000x32 1 := cmpf .olt main_v0 main_v1
  let main_c : IVec S_ 1 := constantI S_ 1 1#1
  let main_v3 : IVec S_ 1 := (fun x v => Host.reduce IntOp.andi x v reducesTo_S2000000x32_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_v13 main_v16
-- ==== Kernel.lean ====
abbrev S2000000x32 : Shape := ⟨2, ![2000000, 32]⟩
abbrev S64x32 : Shape := ⟨2, ![64, 32]⟩
abbrev S64x64 : Shape := ⟨2, ![64, 64]⟩
abbrev S16x64 : Shape := ⟨2, ![16, 64]⟩
abbrev S500000x128 : Shape := ⟨2, ![500000, 128]⟩
abbrev S32x64 : Shape := ⟨2, ![32, 64]⟩
abbrev S_ : Shape := ⟨0, ![]⟩
abbrev S32x256 : Shape := ⟨2, ![32, 256]⟩
abbrev S128x256 : Shape := ⟨2, ![128, 256]⟩
abbrev S64x256 : Shape := ⟨2, ![64, 256]⟩
abbrev S256x256 : Shape := ⟨2, ![256, 256]⟩
abbrev S64x16 : Shape := ⟨2, ![64, 16]⟩
abbrev S256x64 : Shape := ⟨2, ![256, 64]⟩
abbrev S500000x64 : Shape := ⟨2, ![500000, 64]⟩
abbrev S5000x128 : Shape := ⟨2, ![5000, 128]⟩
abbrev S5000x64 : Shape := ⟨2, ![5000, 64]⟩
abbrev S5000x256 : Shape := ⟨2, ![5000, 256]⟩
abbrev S2000000x16 : Shape := ⟨2, ![2000000, 16]⟩

abbrev nBuf : Space → Nat
  | .hbm => 34
  | .vmem => 7
  | .smem => 0
  | _ => 0

abbrev bufTy : (tb : Table) → Fin (tcTables nBuf tb) → BufTy
  | .hbm, ⟨0, _⟩ => ⟨S2000000x32, .f32⟩
  | .hbm, ⟨1, _⟩ => ⟨S64x32, .f32⟩
  | .hbm, ⟨2, _⟩ => ⟨S64x64, .f32⟩
  | .hbm, ⟨3, _⟩ => ⟨S16x64, .f32⟩
  | .hbm, ⟨4, _⟩ => ⟨S500000x128, .f32⟩
  | .hbm, ⟨5, _⟩ => ⟨S32x64, .f32⟩
  | .hbm, ⟨6, _⟩ => ⟨S32x64, .bf16⟩
  | .hbm, ⟨7, _⟩ => ⟨S_, .bf16⟩
  | .hbm, ⟨8, _⟩ => ⟨S32x64, .bf16⟩
  | .hbm, ⟨9, _⟩ => ⟨S32x256, .bf16⟩
  | .hbm, ⟨10, _⟩ => ⟨S32x256, .bf16⟩
  | .hbm, ⟨11, _⟩ => ⟨S32x256, .bf16⟩
  | .hbm, ⟨12, _⟩ => ⟨S32x256, .bf16⟩
  | .hbm, ⟨13, _⟩ => ⟨S128x256, .bf16⟩
  | .hbm, ⟨14, _⟩ => ⟨S64x64, .f32⟩
  | .hbm, ⟨15, _⟩ => ⟨S64x64, .bf16⟩
  | .hbm, ⟨16, _⟩ => ⟨S_, .bf16⟩
  | .hbm, ⟨17, _⟩ => ⟨S64x64, .bf16⟩
  | .hbm, ⟨18, _⟩ => ⟨S64x256, .bf16⟩
  | .hbm, ⟨19, _⟩ => ⟨S64x256, .bf16⟩
  | .hbm, ⟨20, _⟩ => ⟨S64x256, .bf16⟩
  | .hbm, ⟨21, _⟩ => ⟨S64x256, .bf16⟩
  | .hbm, ⟨22, _⟩ => ⟨S256x256, .bf16⟩
  | .hbm, ⟨23, _⟩ => ⟨S64x16, .f32⟩
  | .hbm, ⟨24, _⟩ => ⟨S64x16, .bf16⟩
  | .hbm, ⟨25, _⟩ => ⟨S_, .bf16⟩
  | .hbm, ⟨26, _⟩ => ⟨S64x16, .bf16⟩
  | .hbm, ⟨27, _⟩ => ⟨S64x64, .bf16⟩
  | .hbm, ⟨28, _⟩ => ⟨S64x64, .bf16⟩
  | .hbm, ⟨29, _⟩ => ⟨S64x64, .bf16⟩
  | .hbm, ⟨30, _⟩ => ⟨S64x64, .bf16⟩
  | .hbm, ⟨31, _⟩ => ⟨S256x64, .bf16⟩
  | .hbm, ⟨32, _⟩ => ⟨S500000x64, .f32⟩
  | .hbm, ⟨33, _⟩ => ⟨S2000000x16, .f32⟩
  | .local _ .vmem, ⟨0, _⟩ => ⟨S5000x128, .f32⟩
  | .local _ .vmem, ⟨1, _⟩ => ⟨S5000x128, .f32⟩
  | .local _ .vmem, ⟨2, _⟩ => ⟨S128x256, .bf16⟩
  | .local _ .vmem, ⟨3, _⟩ => ⟨S256x256, .bf16⟩
  | .local _ .vmem, ⟨4, _⟩ => ⟨S256x64, .bf16⟩
  | .local _ .vmem, ⟨5, _⟩ => ⟨S5000x64, .f32⟩
  | .local _ .vmem, ⟨6, _⟩ => ⟨S5000x64, .f32⟩
  | _, _ => ⟨S2000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2000000x32_S500000x128 : S2000000x32.ShapeCasts S500000x128
  transposes_S64x32_S32x64_1_0 : S64x32.Transposes [1, 0] S32x64
  bitsLt_bf16_f32 : FTy.bits .bf16 < FTy.bits .f32
  bcast_S_S32x64 : S_.BroadcastsInDim S32x64 (![] : Fin 0 → Fin S32x64.rank)
  concatenates_S32x64_S32x64_S32x64_S32x64_S32x256_d1 : Shape.Concatenates [S32x64, S32x64, S32x64, S32x64] S32x256 1
  concatenates_S32x256_S32x256_S32x256_S32x256_S128x256_d0 : Shape.Concatenates [S32x256, S32x256, S32x256, S32x256] S128x256 0
  transposes_S64x64_S64x64_1_0 : S64x64.Transposes [1, 0] S64x64
  bcast_S_S64x64 : S_.BroadcastsInDim S64x64 (![] : Fin 0 → Fin S64x64.rank)
  concatenates_S64x64_S64x64_S64x64_S64x64_S64x256_d1 : Shape.Concatenates [S64x64, S64x64, S64x64, S64x64] S64x256 1
  concatenates_S64x256_S64x256_S64x256_S64x256_S256x256_d0 : Shape.Concatenates [S64x256, S64x256, S64x256, S64x256] S256x256 0
  transposes_S16x64_S64x16_1_0 : S16x64.Transposes [1, 0] S64x16
  bcast_S_S64x16 : S_.BroadcastsInDim S64x16 (![] : Fin 0 → Fin S64x16.rank)
  concatenates_S64x16_S64x16_S64x16_S64x16_S64x64_d1 : Shape.Concatenates [S64x16, S64x16, S64x16, S64x16] S64x64 1
  concatenates_S64x64_S64x64_S64x64_S64x64_S256x64_d0 : Shape.Concatenates [S64x64, S64x64, S64x64, S64x64] S256x64 0
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x64_S5000x64_0_0 : ∀ a, (![0, 0] : Fin 2 → Nat) a + S5000x64.size a ≤ S5000x64.size a
  h_S5000x64 : 0 < S5000x64.numel
  shapeCasts_S500000x64_S2000000x16 : S500000x64.ShapeCasts S2000000x16
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .bf16 = 32 ∨ (Rect.block (s := S256x64) S256x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S500000x64.size a
  hwx0_4 : ∀ i : grid0.Coords, EltTy.bits .f32 = 32 ∨ (Rect.block (s := S500000x64) S5000x64.size (cc0_transform_4 i) (hinb0_4 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000x32 : Shape := ⟨2, ![2000000, 32]⟩
abbrev S64x32 : Shape := ⟨2, ![64, 32]⟩
abbrev S64x64 : Shape := ⟨2, ![64, 64]⟩
abbrev S16x64 : Shape := ⟨2, ![16, 64]⟩
abbrev S2000000x64 : Shape := ⟨2, ![2000000, 64]⟩
abbrev S_ : Shape := ⟨0, ![]⟩
abbrev S2000000x16 : Shape := ⟨2, ![2000000, 16]⟩

abbrev nBuf : Space → Nat
  | .hbm => 13
  | .vmem => 0
  | .smem => 0
  | _ => 0

abbrev bufTy : (tb : Table) → Fin (tcTables nBuf tb) → BufTy
  | .hbm, ⟨0, _⟩ => ⟨S2000000x32, .f32⟩
  | .hbm, ⟨1, _⟩ => ⟨S64x32, .f32⟩
  | .hbm, ⟨2, _⟩ => ⟨S64x64, .f32⟩
  | .hbm, ⟨3, _⟩ => ⟨S16x64, .f32⟩
  | .hbm, ⟨4, _⟩ => ⟨S2000000x64, .f32⟩
  | .hbm, ⟨5, _⟩ => ⟨S_, .f32⟩
  | .hbm, ⟨6, _⟩ => ⟨S2000000x64, .f32⟩
  | .hbm, ⟨7, _⟩ => ⟨S2000000x64, .f32⟩
  | .hbm, ⟨8, _⟩ => ⟨S2000000x64, .f32⟩
  | .hbm, ⟨9, _⟩ => ⟨S_, .f32⟩
  | .hbm, ⟨10, _⟩ => ⟨S2000000x64, .f32⟩
  | .hbm, ⟨11, _⟩ => ⟨S2000000x64, .f32⟩
  | .hbm, ⟨12, _⟩ => ⟨S2000000x16, .f32⟩
  | _, _ => ⟨S2000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_call1_cst : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩

abbrev nD : Nat := 1
abbrev τ : Topo := Topo.v7x

variable {F : FTy → Type} [FloatOps F]

class Facts₀ : Prop where
  bcast_S_S2000000x64 : S_.BroadcastsInDim S2000000x64 (![] : Fin 0 → Fin S2000000x64.rank)
  dot_S2000000x32_S64x32_S2000000x64_1_1_0_0_n_n_wf : DotDims.WF S2000000x32 S64x32 S2000000x64 [1] [1] [0] [0] [] []
  dot_S2000000x64_S64x64_S2000000x64_1_1_0_0_n_n_wf : DotDims.WF S2000000x64 S64x64 S2000000x64 [1] [1] [0] [0] [] []
  dot_S2000000x64_S16x64_S2000000x16_1_1_0_0_n_n_wf : DotDims.WF S2000000x64 S16x64 S2000000x16 [1] [1] [0] [0] [] []

variable [Facts₀]

def dot_S2000000x32_S64x32_S2000000x64_1_1_0_0_n_n : DotDims S2000000x32 S64x32 S2000000x64 where
  lhsContracting := [1]
  rhsContracting := [1]
  lhsNonContracting := [0]
  rhsNonContracting := [0]
  lhsBatch := []
  rhsBatch := []
  wf := dot_S2000000x32_S64x32_S2000000x64_1_1_0_0_n_n_wf
def dot_S2000000x64_S64x64_S2000000x64_1_1_0_0_n_n : DotDims S2000000x64 S64x64 S2000000x64 where
  lhsContracting := [1]
  rhsContracting := [1]
  lhsNonContracting := [0]
  rhsNonContracting := [0]
  lhsBatch := []
  rhsBatch := []
  wf := dot_S2000000x64_S64x64_S2000000x64_1_1_0_0_n_n_wf
def dot_S2000000x64_S16x64_S2000000x16_1_1_0_0_n_n : DotDims S2000000x64 S16x64 S2000000x16 where
  lhsContracting := [1]
  rhsContracting := [1]
  lhsNonContracting := [0]
  rhsNonContracting := [0]
  lhsBatch := []
  rhsBatch := []
  wf := dot_S2000000x64_S16x64_S2000000x16_1_1_0_0_n_n_wf

class Facts : Prop extends Facts₀ where

variable [Facts]
-- ==== Proof.KernelFrame.lean ====
/-
  The frame of the program: its host lines before the one region only build the region's operands (a reshape of the
  batch and three block-diagonal weight matrices), the region's body loads its four operand blocks whole and stores one
  value over its whole output block, and the one host line after the region reshapes the region's result. So the run
  terminates without a fault, no line writes an argument array, and after the run every array the region stages holds
  what the body's stores left block by block, every other buffer what the host lines left in it.
  The body's arithmetic stays folded in the skeleton's payload throughout; it is the same text at every float instance.
-/
import proofs.«410424_j22771916603452_3_alg».proof.Proof.Gen.Kernel.Launch
import proofs.«410424_j22771916603452_3_alg».proof.Proof.Gen.Kernel.Skeleton
import proofs.«410424_j22771916603452_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core c's buffers hold when the region is entered: the launch contents run through the 28 host lines before it. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host lines, the region, and the closing reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing reshape touches the region's result array and a buffer the region never sees. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes its own result only, which is none of the region's five arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))

/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))

/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))

/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))

/-- Nor does the closing reshape, nor the region (argument 0 is none of its arrays): it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does the closing reshape, nor the region (argument 1 is none of its arrays): it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does the closing reshape, nor the region (argument 2 is none of its arrays): it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does the closing reshape, nor the region (argument 3 is none of its arrays): it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window w's block at grid point t, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Operand window 0's current staging buffer holds its block at every point, whether the point fetches it or not
    (an unfetched block's index has not moved), for any proof data over these arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Operand window 1's current staging buffer holds its block at every point, whether the point fetches it or not
    (an unfetched block's index has not moved), for any proof data over these arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Operand window 2's current staging buffer holds its block at every point, whether the point fetches it or not
    (an unfetched block's index has not moved), for any proof data over these arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Operand window 3's current staging buffer holds its block at every point, whether the point fetches it or not
    (an unfetched block's index has not moved), for any proof data over these arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- The four argument arrays are staged by no window and written by no line, so a run that ends with every unstaged
    buffer at what the host lines leave ends with the arguments as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body -/

/-- The whole block of each window: what the body's loads and its store address. -/
abbrev rx : Rect S5000x128 := Rect.unit (s := S5000x128) ![0, 0] S5000x128.size inb_S5000x128_S5000x128_0_0
abbrev rw0 : Rect S128x256 := Rect.unit (s := S128x256) ![0, 0] S128x256.size inb_S128x256_S128x256_0_0
abbrev rw1 : Rect S256x256 := Rect.unit (s := S256x256) ![0, 0] S256x256.size inb_S256x256_S256x256_0_0
abbrev rw2 : Rect S256x64 := Rect.unit (s := S256x64) ![0, 0] S256x64.size inb_S256x64_S256x64_0_0
abbrev ro : Rect S5000x64 := Rect.unit (s := S5000x64) ![0, 0] S5000x64.size inb_S5000x64_S5000x64_0_0

/-- What the body leaves in the result window's buffer: its one store, of the payload of the four operand blocks. -/
def outBlk (x : Vec F S5000x128 .f32) (b0 : Vec F S128x256 .bf16) (b1 : Vec F S256x256 .bf16) (b2 : Vec F S256x64 .bf16) :
    Vec F S5000x64 .f32 :=
  View.canon [⟨ro, k0_pay1 (View.ld x rx) (View.ld b0 rw0) (View.ld b1 rw1) (View.ld b2 rw2)⟩]

/-- The one store addresses the whole buffer. -/
theorem outCover (p0 : Vec F S5000x64 .f32) (y : S5000x64.Idx) :
    ∃ pc ∈ ([⟨ro, p0⟩] : List (View.Piece (Elt F) S5000x64 .f32)), y ∈ pc.1.set :=
  View.cover_of_tiled [⟨ro, p0⟩] S5000x64.size (by rfl) y

set_option maxHeartbeats 1000000 in
/-- The body, on whole staging buffers holding the four operand blocks and anything in the result's: it faults nowhere,
    leaves the operands' buffers as they were and the result's at `outBlk` of them (what it first loads from the
    result's buffer it never uses). -/
theorem sound_kernel (c : Dev nD) (E : Set ℕ) (i : grid0.Coords)
    (arg1 : Memref sig .tc .vmem S5000x128 .f32) (harg1 : arg1.IsWhole) (arg2 : Memref sig .tc .vmem S128x256 .bf16) (harg2 : arg2.IsWhole)
    (arg3 : Memref sig .tc .vmem S256x256 .bf16) (harg3 : arg3.IsWhole) (arg4 : Memref sig .tc .vmem S256x64 .bf16) (harg4 : arg4.IsWhole)
    (arg5 : Memref sig .tc .vmem S5000x64 .f32) (harg5 : arg5.IsWhole)
    (x : Vec F S5000x128 .f32) (b0 : Vec F S128x256 .bf16) (b1 : Vec F S256x256 .bf16) (b2 : Vec F S256x64 .bf16) (K : PUnit → sProp 𝕄) :
    iprop(owns (c : Thread nD τ) arg1 fullShare x ∗ owns (c : Thread nD τ) arg2 fullShare b0 ∗ owns (c : Thread nD τ) arg3 fullShare b1
        ∗ owns (c : Thread nD τ) arg4 fullShare b2 ∗ (∃ d, owns (c : Thread nD τ) arg5 fullShare d)
        ∗ (iprop(owns (c : Thread nD τ) arg1 fullShare x ∗ owns (c : Thread nD τ) arg2 fullShare b0 ∗ owns (c : Thread nD τ) arg3 fullShare b1
            ∗ owns (c : Thread nD τ) arg4 fullShare b2 ∗ owns (c : Thread nD τ) arg5 fullShare (outBlk x b0 b1 b2)) -∗ K ⟨⟩))
      ⊢ wp frame (wpE (defs₀ (F := F)) Variants.none c none) E (cc0__mlp_kernel i arg1 harg1 arg2 harg2 arg3 harg3 arg4 harg4 arg5 harg5) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The proof data of the pipeline -/

/-- On core c: the arrays as the region finds them; after the body at point t each operand's buffer still at its block
    and the result's at `outBlk` of the four blocks; the region's own scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlk (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

/-- What the pipeline hands the body at point t, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; at its end each of the region's five arrays
    holds what the proof data computes (an operand its entry contents, the result the blocks the body stored) and every
    other unscoped buffer what the closing reshape leaves in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Hand

end
-- ==== Proof.KernelIdealFrame.lean ====
/-
  The frame of the program: its host lines before the one region only build the region's operands (a reshape of the
  batch and three block-diagonal weight matrices), the region's body loads its four operand blocks whole and stores one
  value over its whole output block, and the one host line after the region reshapes the region's result. So the run
  terminates without a fault, no line writes an argument array, and after the run every array the region stages holds
  what the body's stores left block by block, every other buffer what the host lines left in it.
  The body's arithmetic stays folded in the skeleton's payload throughout; it is the same text at every float instance.
-/
import proofs.«410424_j22771916603452_3_alg».proof.Proof.Gen.KernelIdeal.Launch
import proofs.«410424_j22771916603452_3_alg».proof.Proof.Gen.KernelIdeal.Skeleton
import proofs.«410424_j22771916603452_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core c's buffers hold when the region is entered: the launch contents run through the 28 host lines before it. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host lines, the region, and the closing reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing reshape touches the region's result array and a buffer the region never sees. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes its own result only, which is none of the region's five arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))

/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))

/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))

/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))

/-- Nor does the closing reshape, nor the region (argument 0 is none of its arrays): it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does the closing reshape, nor the region (argument 1 is none of its arrays): it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does the closing reshape, nor the region (argument 2 is none of its arrays): it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does the closing reshape, nor the region (argument 3 is none of its arrays): it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window w's block at grid point t, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Operand window 0's current staging buffer holds its block at every point, whether the point fetches it or not
    (an unfetched block's index has not moved), for any proof data over these arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Operand window 1's current staging buffer holds its block at every point, whether the point fetches it or not
    (an unfetched block's index has not moved), for any proof data over these arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Operand window 2's current staging buffer holds its block at every point, whether the point fetches it or not
    (an unfetched block's index has not moved), for any proof data over these arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Operand window 3's current staging buffer holds its block at every point, whether the point fetches it or not
    (an unfetched block's index has not moved), for any proof data over these arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- The four argument arrays are staged by no window and written by no line, so a run that ends with every unstaged
    buffer at what the host lines leave ends with the arguments as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body -/

/-- The whole block of each window: what the body's loads and its store address. -/
abbrev rx : Rect S5000x128 := Rect.unit (s := S5000x128) ![0, 0] S5000x128.size inb_S5000x128_S5000x128_0_0
abbrev rw0 : Rect S128x256 := Rect.unit (s := S128x256) ![0, 0] S128x256.size inb_S128x256_S128x256_0_0
abbrev rw1 : Rect S256x256 := Rect.unit (s := S256x256) ![0, 0] S256x256.size inb_S256x256_S256x256_0_0
abbrev rw2 : Rect S256x64 := Rect.unit (s := S256x64) ![0, 0] S256x64.size inb_S256x64_S256x64_0_0
abbrev ro : Rect S5000x64 := Rect.unit (s := S5000x64) ![0, 0] S5000x64.size inb_S5000x64_S5000x64_0_0

/-- What the body leaves in the result window's buffer: its one store, of the payload of the four operand blocks. -/
def outBlk (x : Vec F S5000x128 .f32) (b0 : Vec F S128x256 .bf16) (b1 : Vec F S256x256 .bf16) (b2 : Vec F S256x64 .bf16) :
    Vec F S5000x64 .f32 :=
  View.canon [⟨ro, k0_pay1 (View.ld x rx) (View.ld b0 rw0) (View.ld b1 rw1) (View.ld b2 rw2)⟩]

/-- The one store addresses the whole buffer. -/
theorem outCover (p0 : Vec F S5000x64 .f32) (y : S5000x64.Idx) :
    ∃ pc ∈ ([⟨ro, p0⟩] : List (View.Piece (Elt F) S5000x64 .f32)), y ∈ pc.1.set :=
  View.cover_of_tiled [⟨ro, p0⟩] S5000x64.size (by rfl) y

set_option maxHeartbeats 1000000 in
/-- The body, on whole staging buffers holding the four operand blocks and anything in the result's: it faults nowhere,
    leaves the operands' buffers as they were and the result's at `outBlk` of them (what it first loads from the
    result's buffer it never uses). -/
theorem sound_kernel (c : Dev nD) (E : Set ℕ) (i : grid0.Coords)
    (arg1 : Memref sig .tc .vmem S5000x128 .f32) (harg1 : arg1.IsWhole) (arg2 : Memref sig .tc .vmem S128x256 .bf16) (harg2 : arg2.IsWhole)
    (arg3 : Memref sig .tc .vmem S256x256 .bf16) (harg3 : arg3.IsWhole) (arg4 : Memref sig .tc .vmem S256x64 .bf16) (harg4 : arg4.IsWhole)
    (arg5 : Memref sig .tc .vmem S5000x64 .f32) (harg5 : arg5.IsWhole)
    (x : Vec F S5000x128 .f32) (b0 : Vec F S128x256 .bf16) (b1 : Vec F S256x256 .bf16) (b2 : Vec F S256x64 .bf16) (K : PUnit → sProp 𝕄) :
    iprop(owns (c : Thread nD τ) arg1 fullShare x ∗ owns (c : Thread nD τ) arg2 fullShare b0 ∗ owns (c : Thread nD τ) arg3 fullShare b1
        ∗ owns (c : Thread nD τ) arg4 fullShare b2 ∗ (∃ d, owns (c : Thread nD τ) arg5 fullShare d)
        ∗ (iprop(owns (c : Thread nD τ) arg1 fullShare x ∗ owns (c : Thread nD τ) arg2 fullShare b0 ∗ owns (c : Thread nD τ) arg3 fullShare b1
            ∗ owns (c : Thread nD τ) arg4 fullShare b2 ∗ owns (c : Thread nD τ) arg5 fullShare (outBlk x b0 b1 b2)) -∗ K ⟨⟩))
      ⊢ wp frame (wpE (defs₀ (F := F)) Variants.none c none) E (cc0__mlp_kernel i arg1 harg1 arg2 harg2 arg3 harg3 arg4 harg4 arg5 harg5) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The proof data of the pipeline -/

/-- On core c: the arrays as the region finds them; after the body at point t each operand's buffer still at its block
    and the result's at `outBlk` of the four blocks; the region's own scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlk (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

/-- What the pipeline hands the body at point t, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; at its end each of the region's five arrays
    holds what the proof data computes (an operand its entry contents, the result the blocks the body stored) and every
    other unscoped buffer what the closing reshape leaves in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Hand

end
-- ==== Proof.LibBlockDiag.lean ====
/-
  A matrix assembled from sixteen blocks — four rows of four, each row of blocks joined along the second axis and the
  four rows then joined along the first — whose diagonal blocks are one matrix wt and whose other blocks are one matrix z,
  read at an entry: in block row j, block column i, at (k, n) inside the block, it is wt[k, n] when j = i and z[k, n] otherwise.
-/
import Idealize.ShloMosaic.Lib.Pipeline.Value
import Idealize.ShloMosaic.Lib.ValueIdx

noncomputable section

namespace Cert.Lib.BlockDiag

open Idealize.ShloMosaic Idealize.ShloMosaic.ValueIdx

variable {α : Type} {R C R4 C4 : Nat}

/-- Four R×C pieces joined along the second axis, read at row k, column C*l + n: the join's columns are the pieces'
    columns laid side by side, so this entry is piece l's entry (k, n). -/
theorem row4_apply (p0 p1 p2 p3 : (⟨2, ![R, C]⟩ : Shape).Idx → α)
    (h1 : Shape.Concatenates [⟨2, ![R, C]⟩, ⟨2, ![R, C]⟩, ⟨2, ![R, C]⟩, ⟨2, ![R, C]⟩] ⟨2, ![R, C4]⟩ 1)
    (l : Fin 4) (k : Fin R) (n : Fin C) (hc : C * l.val + n.val < C4) :
    concatenate ⟨2, ![R, C4]⟩ 1 [⟨⟨2, ![R, C]⟩, p0⟩, ⟨⟨2, ![R, C]⟩, p1⟩, ⟨⟨2, ![R, C]⟩, p2⟩, ⟨⟨2, ![R, C]⟩, p3⟩] h1
      (ix2 k ⟨C * l.val + n.val, hc⟩) = ![p0, p1, p2, p3] l (ix2 k n) := by
  -- off the joined axis (the rows) the coordinates agree
  have hi : ∀ b : Fin 2, b ≠ 1 → ((ix2 k n) b).val = ((ix2 k (⟨C * l.val + n.val, hc⟩ : Fin C4)) b).val := fun b hb => by
    match b with
    | ⟨0, _⟩ => rfl
    | ⟨1, _⟩ => exact absurd rfl hb
  match l, hc, hi with
  | ⟨0, _⟩, hc, hi =>
    exact concatenate_apply_piece (t := ⟨2, ![R, C4]⟩) (1 : Fin 2)
      [⟨⟨2, ![R, C]⟩, p0⟩, ⟨⟨2, ![R, C]⟩, p1⟩, ⟨⟨2, ![R, C]⟩, p2⟩, ⟨⟨2, ![R, C]⟩, p3⟩] h1 _ 0 (by simp) ⟨2, ![R, C]⟩ p0 rfl rfl
      0 rfl (ix2 k n) hi (by show 0 + n.val = C * 0 + n.val; omega)
  | ⟨1, _⟩, hc, hi =>
    exact concatenate_apply_piece (t := ⟨2, ![R, C4]⟩) (1 : Fin 2)
      [⟨⟨2, ![R, C]⟩, p0⟩, ⟨⟨2, ![R, C]⟩, p1⟩, ⟨⟨2, ![R, C]⟩, p2⟩, ⟨⟨2, ![R, C]⟩, p3⟩] h1 _ 1 (by simp) ⟨2, ![R, C]⟩ p1 rfl rfl
      C rfl (ix2 k n) hi (by show C + n.val = C * 1 + n.val; omega)
  | ⟨2, _⟩, hc, hi =>
    exact concatenate_apply_piece (t := ⟨2, ![R, C4]⟩) (1 : Fin 2)
      [⟨⟨2, ![R, C]⟩, p0⟩, ⟨⟨2, ![R, C]⟩, p1⟩, ⟨⟨2, ![R, C]⟩, p2⟩, ⟨⟨2, ![R, C]⟩, p3⟩] h1 _ 2 (by simp) ⟨2, ![R, C]⟩ p2 rfl rfl
      (C + C) rfl (ix2 k n) hi (by show C + C + n.val = C * 2 + n.val; omega)
  | ⟨3, _⟩, hc, hi =>
    exact concatenate_apply_piece (t := ⟨2, ![R, C4]⟩) (1 : Fin 2)
      [⟨⟨2, ![R, C]⟩, p0⟩, ⟨⟨2, ![R, C]⟩, p1⟩, ⟨⟨2, ![R, C]⟩, p2⟩, ⟨⟨2, ![R, C]⟩, p3⟩] h1 _ 3 (by simp) ⟨2, ![R, C]⟩ p3 rfl rfl
      (C + (C + C)) rfl (ix2 k n) hi (by show C + (C + C) + n.val = C * 3 + n.val; omega)

/-- Four R×C4 pieces joined along the first axis, read at row R*l + k, column c: the join's rows are the pieces'
    rows stacked, so this entry is piece l's entry (k, c). -/
theorem col4_apply (q0 q1 q2 q3 : (⟨2, ![R, C4]⟩ : Shape).Idx → α)
    (h0 : Shape.Concatenates [⟨2, ![R, C4]⟩, ⟨2, ![R, C4]⟩, ⟨2, ![R, C4]⟩, ⟨2, ![R, C4]⟩] ⟨2, ![R4, C4]⟩ 0)
    (l : Fin 4) (k : Fin R) (c : Fin C4) (hr : R * l.val + k.val < R4) :
    concatenate ⟨2, ![R4, C4]⟩ 0 [⟨⟨2, ![R, C4]⟩, q0⟩, ⟨⟨2, ![R, C4]⟩, q1⟩, ⟨⟨2, ![R, C4]⟩, q2⟩, ⟨⟨2, ![R, C4]⟩, q3⟩] h0
      (ix2 ⟨R * l.val + k.val, hr⟩ c) = ![q0, q1, q2, q3] l (ix2 k c) := by
  -- off the joined axis (the columns) the coordinates agree
  have hi : ∀ b : Fin 2, b ≠ 0 → ((ix2 k c) b).val = ((ix2 (⟨R * l.val + k.val, hr⟩ : Fin R4) c) b).val := fun b hb => by
    match b with
    | ⟨0, _⟩ => exact absurd rfl hb
    | ⟨1, _⟩ => rfl
  match l, hr, hi with
  | ⟨0, _⟩, hr, hi =>
    exact concatenate_apply_piece (t := ⟨2, ![R4, C4]⟩) (0 : Fin 2)
      [⟨⟨2, ![R, C4]⟩, q0⟩, ⟨⟨2, ![R, C4]⟩, q1⟩, ⟨⟨2, ![R, C4]⟩, q2⟩, ⟨⟨2, ![R, C4]⟩, q3⟩] h0 _ 0 (by simp) ⟨2, ![R, C4]⟩ q0 rfl rfl
      0 rfl (ix2 k c) hi (by show 0 + k.val = R * 0 + k.val; omega)
  | ⟨1, _⟩, hr, hi =>
    exact concatenate_apply_piece (t := ⟨2, ![R4, C4]⟩) (0 : Fin 2)
      [⟨⟨2, ![R, C4]⟩, q0⟩, ⟨⟨2, ![R, C4]⟩, q1⟩, ⟨⟨2, ![R, C4]⟩, q2⟩, ⟨⟨2, ![R, C4]⟩, q3⟩] h0 _ 1 (by simp) ⟨2, ![R, C4]⟩ q1 rfl rfl
      R rfl (ix2 k c) hi (by show R + k.val = R * 1 + k.val; omega)
  | ⟨2, _⟩, hr, hi =>
    exact concatenate_apply_piece (t := ⟨2, ![R4, C4]⟩) (0 : Fin 2)
      [⟨⟨2, ![R, C4]⟩, q0⟩, ⟨⟨2, ![R, C4]⟩, q1⟩, ⟨⟨2, ![R, C4]⟩, q2⟩, ⟨⟨2, ![R, C4]⟩, q3⟩] h0 _ 2 (by simp) ⟨2, ![R, C4]⟩ q2 rfl rfl
      (R + R) rfl (ix2 k c) hi (by show R + R + k.val = R * 2 + k.val; omega)
  | ⟨3, _⟩, hr, hi =>
    exact concatenate_apply_piece (t := ⟨2, ![R4, C4]⟩) (0 : Fin 2)
      [⟨⟨2, ![R, C4]⟩, q0⟩, ⟨⟨2, ![R, C4]⟩, q1⟩, ⟨⟨2, ![R, C4]⟩, q2⟩, ⟨⟨2, ![R, C4]⟩, q3⟩] h0 _ 3 (by simp) ⟨2, ![R, C4]⟩ q3 rfl rfl
      (R + (R + R)) rfl (ix2 k c) hi (by show R + (R + R) + k.val = R * 3 + k.val; omega)

/-- The block-diagonal arrangement of four copies of wt (z elsewhere), read at row R*j + k, column C*i + n. -/
theorem blockdiag4_apply (wt z : (⟨2, ![R, C]⟩ : Shape).Idx → α)
    (h1 : Shape.Concatenates [⟨2, ![R, C]⟩, ⟨2, ![R, C]⟩, ⟨2, ![R, C]⟩, ⟨2, ![R, C]⟩] ⟨2, ![R, C4]⟩ 1)
    (h0 : Shape.Concatenates [⟨2, ![R, C4]⟩, ⟨2, ![R, C4]⟩, ⟨2, ![R, C4]⟩, ⟨2, ![R, C4]⟩] ⟨2, ![R4, C4]⟩ 0)
    (j i : Fin 4) (k : Fin R) (n : Fin C) (hr : R * j.val + k.val < R4) (hc : C * i.val + n.val < C4) :
    concatenate ⟨2, ![R4, C4]⟩ 0
      [⟨⟨2, ![R, C4]⟩, concatenate ⟨2, ![R, C4]⟩ 1 [⟨⟨2, ![R, C]⟩, wt⟩, ⟨⟨2, ![R, C]⟩, z⟩, ⟨⟨2, ![R, C]⟩, z⟩, ⟨⟨2, ![R, C]⟩, z⟩] h1⟩,
       ⟨⟨2, ![R, C4]⟩, concatenate ⟨2, ![R, C4]⟩ 1 [⟨⟨2, ![R, C]⟩, z⟩, ⟨⟨2, ![R, C]⟩, wt⟩, ⟨⟨2, ![R, C]⟩, z⟩, ⟨⟨2, ![R, C]⟩, z⟩] h1⟩,
       ⟨⟨2, ![R, C4]⟩, concatenate ⟨2, ![R, C4]⟩ 1 [⟨⟨2, ![R, C]⟩, z⟩, ⟨⟨2, ![R, C]⟩, z⟩, ⟨⟨2, ![R, C]⟩, wt⟩, ⟨⟨2, ![R, C]⟩, z⟩] h1⟩,
       ⟨⟨2, ![R, C4]⟩, concatenate ⟨2, ![R, C4]⟩ 1 [⟨⟨2, ![R, C]⟩, z⟩, ⟨⟨2, ![R, C]⟩, z⟩, ⟨⟨2, ![R, C]⟩, z⟩, ⟨⟨2, ![R, C]⟩, wt⟩] h1⟩] h0
      (ix2 ⟨R * j.val + k.val, hr⟩ ⟨C * i.val + n.val, hc⟩)
    = if j = i then wt (ix2 k n) else z (ix2 k n) := by
  -- the block row first, then the block inside it
  rw [col4_apply _ _ _ _ h0 j k ⟨C * i.val + n.val, hc⟩ hr]
  have hrow := fun p0 p1 p2 p3 : (⟨2, ![R, C]⟩ : Shape).Idx → α => row4_apply p0 p1 p2 p3 h1 i k n hc
  match j, hr with
  | ⟨0, _⟩, _ =>
    refine (hrow wt z z z).trans ?_
    match i, hc with
    | ⟨0, _⟩, _ => rfl
    | ⟨1, _⟩, _ => rfl
    | ⟨2, _⟩, _ => rfl
    | ⟨3, _⟩, _ => rfl
  | ⟨1, _⟩, _ =>
    refine (hrow z wt z z).trans ?_
    match i, hc with
    | ⟨0, _⟩, _ => rfl
    | ⟨1, _⟩, _ => rfl
    | ⟨2, _⟩, _ => rfl
    | ⟨3, _⟩, _ => rfl
  | ⟨2, _⟩, _ =>
    refine (hrow z z wt z).trans ?_
    match i, hc with
    | ⟨0, _⟩, _ => rfl
    | ⟨1, _⟩, _ => rfl
    | ⟨2, _⟩, _ => rfl
    | ⟨3, _⟩, _ => rfl
  | ⟨3, _⟩, _ =>
    refine (hrow z z z wt).trans ?_
    match i, hc with
    | ⟨0, _⟩, _ => rfl
    | ⟨1, _⟩, _ => rfl
    | ⟨2, _⟩, _ => rfl
    | ⟨3, _⟩, _ => rfl

end Cert.Lib.BlockDiag

end
-- ==== Proof.MlpSpec.lean ====
/-
  Three bias-free linear layers with a rectifier after the first two, applied to one sample of 32 features:
  the 64 hidden values of the first layer, the 64 of the second, and the 16 outputs, each a finite sum of
  products over the extended reals; and the same applied to every row of a 2000000 x 32 array.
  The weights are indexed [out, in]: layer l sends v to (fun a => sum over k of v k * w a k).
-/
import Idealize.ShloMosaic.Lib.ValueIdx

noncomputable section

open scoped BigOperators

namespace Cert.Mlp

open Idealize.ShloMosaic Idealize.ShloMosaic.ValueIdx

/-- First hidden layer of one sample: unit n is max (sum_k v k * w0[n, k]) 0. -/
def hid0 (v : Fin 32 → EReal) (w0 : (⟨2, ![64, 32]⟩ : Shape).Idx → EReal) (n : Fin 64) : EReal :=
  max (∑ k : Fin 32, v k * w0 (ix2 n k)) 0

/-- Second hidden layer: unit mm is max (sum_n hid0 n * w1[mm, n]) 0. -/
def hid1 (v : Fin 32 → EReal) (w0 : (⟨2, ![64, 32]⟩ : Shape).Idx → EReal) (w1 : (⟨2, ![64, 64]⟩ : Shape).Idx → EReal)
    (mm : Fin 64) : EReal :=
  max (∑ n : Fin 64, hid0 v w0 n * w1 (ix2 mm n)) 0

/-- Output layer (no rectifier): output o is sum_mm hid1 mm * w2[o, mm]. -/
def row (v : Fin 32 → EReal) (w0 : (⟨2, ![64, 32]⟩ : Shape).Idx → EReal) (w1 : (⟨2, ![64, 64]⟩ : Shape).Idx → EReal)
    (w2 : (⟨2, ![16, 64]⟩ : Shape).Idx → EReal) (o : Fin 16) : EReal :=
  ∑ mm : Fin 64, hid1 v w0 w1 mm * w2 (ix2 o mm)

/-- The whole batch: row b of the result is `row` of row b of x. -/
def mlp (x : (⟨2, ![2000000, 32]⟩ : Shape).Idx → EReal) (w0 : (⟨2, ![64, 32]⟩ : Shape).Idx → EReal)
    (w1 : (⟨2, ![64, 64]⟩ : Shape).Idx → EReal) (w2 : (⟨2, ![16, 64]⟩ : Shape).Idx → EReal) :
    (⟨2, ![2000000, 16]⟩ : Shape).Idx → EReal :=
  fun i => row (fun k => x (ix2 ⟨(i 0).val, idx2_lt0 i⟩ k)) w0 w1 w2 ⟨(i 1).val, idx2_lt1 i⟩

theorem mlp_ix2 (x : (⟨2, ![2000000, 32]⟩ : Shape).Idx → EReal) (w0 : (⟨2, ![64, 32]⟩ : Shape).Idx → EReal)
    (w1 : (⟨2, ![64, 64]⟩ : Shape).Idx → EReal) (w2 : (⟨2, ![16, 64]⟩ : Shape).Idx → EReal) (b : Fin 2000000) (o : Fin 16) :
    mlp x w0 w1 w2 (ix2 b o) = row (fun k => x (ix2 b k)) w0 w1 w2 o := rfl

end Cert.Mlp

end
-- ==== Proof.PackedLayers.lean ====
/-
  The kernel body's one stored value, read at an entry, when its three weight operands are block-diagonal:
  a row of the 5000 x 128 block holds four samples of 32 features side by side, each weight operand holds four
  copies of a transposed layer matrix on its diagonal and zeros elsewhere, and so entry (p, 16 i + o) of the
  result is output o of the three layers applied to sample i of row p alone — the zero blocks contribute
  nothing to any of the three sums, and the rectifier of zero is zero.
-/
import proofs.«410424_j22771916603452_3_alg».proof.Proof.Gen.KernelIdeal.Skeleton
import proofs.«410424_j22771916603452_3_alg».proof.Proof.MlpSpec
import Idealize.ShloMosaic.Lib.ValueIdx
import Idealize.ShloMosaic.PureOps.Ideal.Laws
import Idealize.ShloMosaic.Lib.KernelVsHost
import Idealize.ShloMosaic.Lib.StackMember
import Idealize.ShloMosaic.Lib.Pipeline.Value

noncomputable section

open scoped BigOperators

namespace Cert.KernelIdeal.Packed

open Cert.KernelIdeal Cert.KernelIdeal.Gen Idealize.ShloMosaic Idealize.ShloMosaic.ValueIdx

/-- A sum over G blocks of K terms, against a factor that vanishes off block i and is w inside it, keeps block i only:
    every other term is a product with zero, and a product with zero is zero for every extended real. -/
theorem sum_blockdiag {G K KK : Nat} (hKK : KK = G * K) (f g : Fin KK → EReal) (w : Fin K → EReal) (i : Fin G)
    (idx : Fin G → Fin K → Fin KK) (hidx : ∀ j k, (idx j k).val = K * j.val + k.val)
    (hg : ∀ j k, g (idx j k) = if j = i then w k else 0) :
    ∑ c : Fin KK, f c * g c = ∑ k : Fin K, f (idx i k) * w k := by
  subst hKK
  have hidx' : ∀ j k, idx j k = finProdFinEquiv (j, k) := fun j k => Fin.ext (by
    rw [hidx]; simp [finProdFinEquiv]; omega)
  rw [← Equiv.sum_comp finProdFinEquiv, Fintype.sum_prod_type, Finset.sum_eq_single i]
  · refine Finset.sum_congr rfl fun k _ => ?_
    rw [← hidx', hg, if_pos rfl]
  · intro j _ hj
    refine Finset.sum_eq_zero fun k _ => ?_
    rw [← hidx', hg, if_neg hj, mul_zero]
  · intro h; exact absurd (Finset.mem_univ i) h

/-- A plain product (rows by contraction, times contraction by columns) into the zero accumulator, read at an entry, is
    the sum over the contracted coordinate of the products of the entries. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    matmul (F := Ideal) (DotDims.plain M K N) prec A B (constant (F := Ideal) ⟨2, ![M, N]⟩ .f32 0x00000000#32) (ix2 a b)
      = ∑ c : Fin K, A (ix2 a c) * B (ix2 c b) := by
  rw [matmul_zero_eq_dotGeneral, StackMember.dotGeneral_plain_apply]

/-- The first layer's stored activations: the narrowed block times the first weight operand, rectified, narrowed. -/
def act0 (x : FVec Ideal S5000x128 .f32) (b0 : FVec Ideal S128x256 .bf16) : FVec Ideal S5000x256 .bf16 :=
  truncf .bf16 (maximumf (matmul dot_S5000x128_S128x256_S5000x256_1_0_0_1_n_n none
      (truncf .bf16 (shapeCast S5000x128 x shapeCasts_S5000x128_S5000x128) bitsLt_bf16_f32)
      (shapeCast S128x256 b0 shapeCasts_S128x256_S128x256) (constant S5000x256 .f32 0x00000000#32))
    (broadcast S5000x256 (Scalar.ofBits .f32 0x00000000#32))) bitsLt_bf16_f32

/-- The second layer's: the previous activations times the second weight operand, rectified, narrowed. -/
def act1 (a : FVec Ideal S5000x256 .bf16) (b1 : FVec Ideal S256x256 .bf16) : FVec Ideal S5000x256 .bf16 :=
  truncf .bf16 (maximumf (matmul dot_S5000x256_S256x256_S5000x256_1_0_0_1_n_n none a
      (shapeCast S256x256 b1 shapeCasts_S256x256_S256x256) (constant S5000x256 .f32 0x00000000#32))
    (broadcast S5000x256 (Scalar.ofBits .f32 0x00000000#32))) bitsLt_bf16_f32

/-- The output layer: the previous activations times the third weight operand, no rectifier. -/
def out2 (a : FVec Ideal S5000x256 .bf16) (b2 : FVec Ideal S256x64 .bf16) : FVec Ideal S5000x64 .f32 :=
  matmul dot_S5000x256_S256x64_S5000x64_1_0_0_1_n_n none a
    (shapeCast S256x64 b2 shapeCasts_S256x64_S256x64) (constant S5000x64 .f32 0x00000000#32)

/-- The stored value is the three layers one after the other. -/
theorem pay_eq (x : FVec Ideal S5000x128 .f32) (b0 : FVec Ideal S128x256 .bf16) (b1 : FVec Ideal S256x256 .bf16)
    (b2 : FVec Ideal S256x64 .bf16) : k0_pay1 (F := Ideal) x b0 b1 b2 = out2 (act1 (act0 x b0) b1) b2 := rfl

/-- A product with a block-diagonal right operand, read in column block i: only row block i of the left operand is met. -/
theorem blockdiag_at {M K N : Nat} {φ₁ φ₂ : FTy} (A : FVec Ideal ⟨2, ![M, 4 * K]⟩ φ₁) (B : FVec Ideal ⟨2, ![4 * K, 4 * N]⟩ φ₂)
    (w : (⟨2, ![N, K]⟩ : Shape).Idx → EReal)
    (hB : ∀ (j i : Fin 4) (k : Fin K) (n : Fin N),
      B (ix2 (⟨K * j.val + k.val, by have := j.isLt; have := k.isLt; nlinarith⟩ : Fin (4 * K))
             (⟨N * i.val + n.val, by have := i.isLt; have := n.isLt; nlinarith⟩ : Fin (4 * N))) = if j = i then w (ix2 n k) else 0)
    (p : Fin M) (i : Fin 4) (n : Fin N) :
    matmul (F := Ideal) (DotDims.plain M (4 * K) (4 * N)) none A B (constant (F := Ideal) ⟨2, ![M, 4 * N]⟩ .f32 0x00000000#32)
        (ix2 p (⟨N * i.val + n.val, by have := i.isLt; have := n.isLt; nlinarith⟩ : Fin (4 * N)))
      = ∑ k : Fin K, A (ix2 p (⟨K * i.val + k.val, by have := i.isLt; have := k.isLt; nlinarith⟩ : Fin (4 * K))) * w (ix2 n k) := by
  rw [matmul_plain_zero_apply]
  exact sum_blockdiag rfl (fun c => A (ix2 p c)) (fun c => B (ix2 c _)) (fun k => w (ix2 n k)) i
    (fun j k => ⟨K * j.val + k.val, by have := j.isLt; have := k.isLt; nlinarith⟩) (fun _ _ => rfl) (fun j k => hB j i k n)

/-- The first layer at column 64 i + n of row p: hidden unit n of sample i of that row. -/
theorem act0_at (x : FVec Ideal S5000x128 .f32) (b0 : FVec Ideal S128x256 .bf16)
    (w0 : (⟨2, ![64, 32]⟩ : Shape).Idx → EReal)
    (h0 : ∀ (j i : Fin 4) (k : Fin 32) (n : Fin 64),
      b0 (ix2 (⟨32 * j.val + k.val, by omega⟩ : Fin 128) (⟨64 * i.val + n.val, by omega⟩ : Fin 256)) = if j = i then w0 (ix2 n k) else 0)
    (p : Fin 5000) (i : Fin 4) (n : Fin 64) :
    act0 x b0 (ix2 p (⟨64 * i.val + n.val, by omega⟩ : Fin 256))
      = Cert.Mlp.hid0 (fun k => x (ix2 p (⟨32 * i.val + k.val, by omega⟩ : Fin 128))) w0 n := by
  unfold act0 Cert.Mlp.hid0
  rw [shapeCast_self, shapeCast_self, truncf_apply, maximumf_apply, broadcast_apply]
  refine congrArg₂ max ?_ Ideal.ofBits_zero_f32
  exact blockdiag_at (K := 32) (N := 64) (truncf .bf16 x bitsLt_bf16_f32) b0 w0 h0 p i n

/-- The second layer at column 64 i + mm of row p, over any previous activations a: the rectified sum over column
    block i of a against the second layer's matrix. -/
theorem act1_at (a : FVec Ideal S5000x256 .bf16) (b1 : FVec Ideal S256x256 .bf16)
    (w1 : (⟨2, ![64, 64]⟩ : Shape).Idx → EReal)
    (h1 : ∀ (j i : Fin 4) (n : Fin 64) (mm : Fin 64),
      b1 (ix2 (⟨64 * j.val + n.val, by omega⟩ : Fin 256) (⟨64 * i.val + mm.val, by omega⟩ : Fin 256)) = if j = i then w1 (ix2 mm n) else 0)
    (p : Fin 5000) (i : Fin 4) (mm : Fin 64) :
    act1 a b1 (ix2 p (⟨64 * i.val + mm.val, by omega⟩ : Fin 256))
      = max (∑ n : Fin 64, a (ix2 p (⟨64 * i.val + n.val, by omega⟩ : Fin 256)) * w1 (ix2 mm n)) 0 := by
  unfold act1
  rw [shapeCast_self, truncf_apply, maximumf_apply, broadcast_apply]
  refine congrArg₂ max ?_ Ideal.ofBits_zero_f32
  exact blockdiag_at (K := 64) (N := 64) a b1 w1 h1 p i mm

/-- The output layer at column 16 i + o of row p, over any previous activations a. -/
theorem out2_at (a : FVec Ideal S5000x256 .bf16) (b2 : FVec Ideal S256x64 .bf16)
    (w2 : (⟨2, ![16, 64]⟩ : Shape).Idx → EReal)
    (h2 : ∀ (j i : Fin 4) (mm : Fin 64) (o : Fin 16),
      b2 (ix2 (⟨64 * j.val + mm.val, by omega⟩ : Fin 256) (⟨16 * i.val + o.val, by omega⟩ : Fin 64)) = if j = i then w2 (ix2 o mm) else 0)
    (p : Fin 5000) (i : Fin 4) (o : Fin 16) :
    out2 a b2 (ix2 p (⟨16 * i.val + o.val, by omega⟩ : Fin 64))
      = ∑ mm : Fin 64, a (ix2 p (⟨64 * i.val + mm.val, by omega⟩ : Fin 256)) * w2 (ix2 o mm) := by
  unfold out2
  rw [shapeCast_self]
  exact blockdiag_at (K := 64) (N := 16) a b2 w2 h2 p i o

/-- The stored value at row p, column 16 i + o is output o of the layers on features 32 i .. 32 i + 31 of row p. -/
theorem pay_apply (x : FVec Ideal S5000x128 .f32) (b0 : FVec Ideal S128x256 .bf16) (b1 : FVec Ideal S256x256 .bf16)
    (b2 : FVec Ideal S256x64 .bf16)
    (w0 : (⟨2, ![64, 32]⟩ : Shape).Idx → EReal) (w1 : (⟨2, ![64, 64]⟩ : Shape).Idx → EReal)
    (w2 : (⟨2, ![16, 64]⟩ : Shape).Idx → EReal)
    (h0 : ∀ (j i : Fin 4) (k : Fin 32) (n : Fin 64),
      b0 (ix2 (⟨32 * j.val + k.val, by omega⟩ : Fin 128) (⟨64 * i.val + n.val, by omega⟩ : Fin 256)) = if j = i then w0 (ix2 n k) else 0)
    (h1 : ∀ (j i : Fin 4) (n : Fin 64) (mm : Fin 64),
      b1 (ix2 (⟨64 * j.val + n.val, by omega⟩ : Fin 256) (⟨64 * i.val + mm.val, by omega⟩ : Fin 256)) = if j = i then w1 (ix2 mm n) else 0)
    (h2 : ∀ (j i : Fin 4) (mm : Fin 64) (o : Fin 16),
      b2 (ix2 (⟨64 * j.val + mm.val, by omega⟩ : Fin 256) (⟨16 * i.val + o.val, by omega⟩ : Fin 64)) = if j = i then w2 (ix2 o mm) else 0)
    (p : Fin 5000) (i : Fin 4) (o : Fin 16) :
    k0_pay1 (F := Ideal) x b0 b1 b2 (ix2 p (⟨16 * i.val + o.val, by omega⟩ : Fin 64))
      = Cert.Mlp.row (fun k => x (ix2 p (⟨32 * i.val + k.val, by omega⟩ : Fin 128))) w0 w1 w2 o := by
  rw [pay_eq, out2_at _ b2 w2 h2 p i o]
  unfold Cert.Mlp.row
  refine Finset.sum_congr rfl fun mm _ => congrArg (· * w2 (ix2 o mm)) ?_
  rw [act1_at _ b1 w1 h1 p i mm]
  unfold Cert.Mlp.hid1
  refine congrArg (max · 0) (Finset.sum_congr rfl fun n _ => congrArg (· * w1 (ix2 mm n)) ?_)
  exact act0_at x b0 w0 h0 p i n

end Cert.KernelIdeal.Packed

end
-- ==== Proof.LibMatLayout.lean ====
/-
  Three layout operations on matrices read at an entry: two matrices laid side by side (joined along the second axis),
  read in the columns of the first and of the second; the upper and the lower band of rows of a matrix (unit-stride
  slices at row offset 0 and at row offset K₁); and the transpose.
-/
import Idealize.ShloMosaic.Lib.Pipeline.Value
import Idealize.ShloMosaic.Lib.ValueIdx

noncomputable section

namespace Cert.Lib.MatLayout

open Idealize.ShloMosaic Idealize.ShloMosaic.ValueIdx

variable {α : Type} {M K₁ K₂ N : Nat}

/-- Side by side, in the first matrix's columns: entry (r, k) with k < K₁ is x₁[r, k]. -/
theorem concat_cols_left (x₁ : (⟨2, ![M, K₁]⟩ : Shape).Idx → α) (x₂ : (⟨2, ![M, K₂]⟩ : Shape).Idx → α)
    (h : Shape.Concatenates [⟨2, ![M, K₁]⟩, ⟨2, ![M, K₂]⟩] ⟨2, ![M, K₁ + K₂]⟩ 1) (r : Fin M) (k : Fin K₁) :
    concatenate ⟨2, ![M, K₁ + K₂]⟩ 1 [⟨⟨2, ![M, K₁]⟩, x₁⟩, ⟨⟨2, ![M, K₂]⟩, x₂⟩] h (ix2 r (Fin.castAdd K₂ k)) = x₁ (ix2 r k) :=
  concatenate_pair_apply_left 1 x₁ x₂ h _ rfl (ix2 r k) fun b => by
    match b with
    | ⟨0, _⟩ => rfl
    | ⟨1, _⟩ => rfl

/-- Side by side, in the second matrix's columns: entry (r, K₁ + k) is x₂[r, k]. -/
theorem concat_cols_right (x₁ : (⟨2, ![M, K₁]⟩ : Shape).Idx → α) (x₂ : (⟨2, ![M, K₂]⟩ : Shape).Idx → α)
    (h : Shape.Concatenates [⟨2, ![M, K₁]⟩, ⟨2, ![M, K₂]⟩] ⟨2, ![M, K₁ + K₂]⟩ 1) (r : Fin M) (k : Fin K₂) :
    concatenate ⟨2, ![M, K₁ + K₂]⟩ 1 [⟨⟨2, ![M, K₁]⟩, x₁⟩, ⟨⟨2, ![M, K₂]⟩, x₂⟩] h (ix2 r (Fin.natAdd K₁ k)) = x₂ (ix2 r k) :=
  concatenate_pair_apply_right 1 x₁ x₂ h _ rfl rfl (ix2 r k)
    (fun b hb => by
      match b, hb with
      | ⟨0, _⟩, _ => rfl
      | ⟨1, _⟩, hb => exact absurd rfl hb)
    (Nat.add_comm _ _)

/-- The upper band: row k of the first K₁ rows is row k of the matrix. -/
theorem slice_upper_rows (w : (⟨2, ![K₁ + K₂, N]⟩ : Shape).Idx → α)
    (h : (⟨2, ![K₁ + K₂, N]⟩ : Shape).Slices ![0, 0] ⟨2, ![K₁, N]⟩) (k : Fin K₁) (b : Fin N) :
    extractStridedSlice ⟨2, ![K₁, N]⟩ ![0, 0] w h (ix2 k b) = w (ix2 (Fin.castAdd K₂ k) b) :=
  extractStridedSlice_apply _ w h _ _ fun a => by
    match a with
    | ⟨0, _⟩ => exact (Nat.zero_add _).symm
    | ⟨1, _⟩ => exact (Nat.zero_add _).symm

/-- The lower band: row k of the last K₂ rows is row K₁ + k of the matrix. -/
theorem slice_lower_rows (w : (⟨2, ![K₁ + K₂, N]⟩ : Shape).Idx → α)
    (h : (⟨2, ![K₁ + K₂, N]⟩ : Shape).Slices ![K₁, 0] ⟨2, ![K₂, N]⟩) (k : Fin K₂) (b : Fin N) :
    extractStridedSlice ⟨2, ![K₂, N]⟩ ![K₁, 0] w h (ix2 k b) = w (ix2 (Fin.natAdd K₁ k) b) :=
  extractStridedSlice_apply _ w h _ _ fun a => by
    match a with
    | ⟨0, _⟩ => rfl
    | ⟨1, _⟩ => exact (Nat.zero_add _).symm

/-- The transpose: entry (c, b) is entry (b, c) of the matrix. -/
theorem transpose_swap (z : (⟨2, ![M, N]⟩ : Shape).Idx → α) (h : (⟨2, ![M, N]⟩ : Shape).Transposes [1, 0] ⟨2, ![N, M]⟩)
    (c : Fin N) (b : Fin M) : transpose ⟨2, ![N, M]⟩ [1, 0] z h (ix2 c b) = z (ix2 b c) :=
  transpose_apply [1, 0] z h _ _ fun t => by
    match t with
    | ⟨0, _⟩ => rfl
    | ⟨1, _⟩ => rfl

end Cert.Lib.MatLayout

end
-- ==== Proof.KernelIdealValue.lean ====
/-
  The idealized kernel program's result as one function of its arguments. The host lines regroup the batch four samples
  to a row and build, from each weight matrix, a block-diagonal operand with four copies of its transpose; the region's
  body multiplies a block of 5000 packed rows through the three operands with a rectifier after the first two; the
  zero blocks keep the four samples of a packed row apart, so column 16 i + o of packed row r is output o of the three
  layers on sample 4 r + i; the 100 blocks tile the packed result, and the closing reshape regroups it one sample to a
  row: the three layers applied to every row of the batch.
-/
import proofs.«410424_j22771916603452_3_alg».proof.Proof.KernelIdealFrame
import proofs.«410424_j22771916603452_3_alg».proof.Proof.LibBlockDiag
import proofs.«410424_j22771916603452_3_alg».proof.Proof.PackedLayers
import proofs.«410424_j22771916603452_3_alg».proof.Proof.MlpSpec
import proofs.«410424_j22771916603452_3_alg».proof.Proof.LibMatLayout
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (ρ : Dev nD → PrngReg)

/-! ## The arguments, and what the host lines make of them -/

/-- The batch and the three weight matrices as launched on core c. -/
abbrev argX (c : Dev nD) : FVec Ideal S2000000x32 .f32 := m ((c : Thread nD τ).loc main_arg0)
abbrev argW0 (c : Dev nD) : FVec Ideal S64x32 .f32 := m ((c : Thread nD τ).loc main_arg1)
abbrev argW1 (c : Dev nD) : FVec Ideal S64x64 .f32 := m ((c : Thread nD τ).loc main_arg2)
abbrev argW2 (c : Dev nD) : FVec Ideal S16x64 .f32 := m ((c : Thread nD τ).loc main_arg3)

/-- The first layer's operand: four copies of the transposed 64 x 32 weights on the diagonal of a 128 x 256 matrix, zeros elsewhere. -/
def bd0 (w : FVec Ideal S64x32 .f32) : FVec Ideal S128x256 .bf16 :=
  let wt : FVec Ideal S32x64 .bf16 := truncf .bf16 (transpose S32x64 [1, 0] w transposes_S64x32_S32x64_1_0) bitsLt_bf16_f32
  let z : FVec Ideal S32x64 .bf16 := broadcastInDim S32x64 ![] bcast_S_S32x64 (constant (F := Ideal) S_ .bf16 0x0000#16)
  concatenate S128x256 0
    [⟨S32x256, concatenate S32x256 1 [⟨S32x64, wt⟩, ⟨S32x64, z⟩, ⟨S32x64, z⟩, ⟨S32x64, z⟩] concatenates_S32x64_S32x64_S32x64_S32x64_S32x256_d1⟩,
     ⟨S32x256, concatenate S32x256 1 [⟨S32x64, z⟩, ⟨S32x64, wt⟩, ⟨S32x64, z⟩, ⟨S32x64, z⟩] concatenates_S32x64_S32x64_S32x64_S32x64_S32x256_d1⟩,
     ⟨S32x256, concatenate S32x256 1 [⟨S32x64, z⟩, ⟨S32x64, z⟩, ⟨S32x64, wt⟩, ⟨S32x64, z⟩] concatenates_S32x64_S32x64_S32x64_S32x64_S32x256_d1⟩,
     ⟨S32x256, concatenate S32x256 1 [⟨S32x64, z⟩, ⟨S32x64, z⟩, ⟨S32x64, z⟩, ⟨S32x64, wt⟩] concatenates_S32x64_S32x64_S32x64_S32x64_S32x256_d1⟩]
    concatenates_S32x256_S32x256_S32x256_S32x256_S128x256_d0

/-- The second layer's operand: four copies of the transposed 64 x 64 weights on the diagonal of a 256 x 256 matrix. -/
def bd1 (w : FVec Ideal S64x64 .f32) : FVec Ideal S256x256 .bf16 :=
  let wt : FVec Ideal S64x64 .bf16 := truncf .bf16 (transpose S64x64 [1, 0] w transposes_S64x64_S64x64_1_0) bitsLt_bf16_f32
  let z : FVec Ideal S64x64 .bf16 := broadcastInDim S64x64 ![] bcast_S_S64x64 (constant (F := Ideal) S_ .bf16 0x0000#16)
  concatenate S256x256 0
    [⟨S64x256, concatenate S64x256 1 [⟨S64x64, wt⟩, ⟨S64x64, z⟩, ⟨S64x64, z⟩, ⟨S64x64, z⟩] concatenates_S64x64_S64x64_S64x64_S64x64_S64x256_d1⟩,
     ⟨S64x256, concatenate S64x256 1 [⟨S64x64, z⟩, ⟨S64x64, wt⟩, ⟨S64x64, z⟩, ⟨S64x64, z⟩] concatenates_S64x64_S64x64_S64x64_S64x64_S64x256_d1⟩,
     ⟨S64x256, concatenate S64x256 1 [⟨S64x64, z⟩, ⟨S64x64, z⟩, ⟨S64x64, wt⟩, ⟨S64x64, z⟩] concatenates_S64x64_S64x64_S64x64_S64x64_S64x256_d1⟩,
     ⟨S64x256, concatenate S64x256 1 [⟨S64x64, z⟩, ⟨S64x64, z⟩, ⟨S64x64, z⟩, ⟨S64x64, wt⟩] concatenates_S64x64_S64x64_S64x64_S64x64_S64x256_d1⟩]
    concatenates_S64x256_S64x256_S64x256_S64x256_S256x256_d0

/-- The third layer's operand: four copies of the transposed 16 x 64 weights on the diagonal of a 256 x 64 matrix. -/
def bd2 (w : FVec Ideal S16x64 .f32) : FVec Ideal S256x64 .bf16 :=
  let wt : FVec Ideal S64x16 .bf16 := truncf .bf16 (transpose S64x16 [1, 0] w transposes_S16x64_S64x16_1_0) bitsLt_bf16_f32
  let z : FVec Ideal S64x16 .bf16 := broadcastInDim S64x16 ![] bcast_S_S64x16 (constant (F := Ideal) S_ .bf16 0x0000#16)
  concatenate S256x64 0
    [⟨S64x64, concatenate S64x64 1 [⟨S64x16, wt⟩, ⟨S64x16, z⟩, ⟨S64x16, z⟩, ⟨S64x16, z⟩] concatenates_S64x16_S64x16_S64x16_S64x16_S64x64_d1⟩,
     ⟨S64x64, concatenate S64x64 1 [⟨S64x16, z⟩, ⟨S64x16, wt⟩, ⟨S64x16, z⟩, ⟨S64x16, z⟩] concatenates_S64x16_S64x16_S64x16_S64x16_S64x64_d1⟩,
     ⟨S64x64, concatenate S64x64 1 [⟨S64x16, z⟩, ⟨S64x16, z⟩, ⟨S64x16, wt⟩, ⟨S64x16, z⟩] concatenates_S64x16_S64x16_S64x16_S64x16_S64x64_d1⟩,
     ⟨S64x64, concatenate S64x64 1 [⟨S64x16, z⟩, ⟨S64x16, z⟩, ⟨S64x16, z⟩, ⟨S64x16, wt⟩] concatenates_S64x16_S64x16_S64x16_S64x16_S64x64_d1⟩]
    concatenates_S64x64_S64x64_S64x64_S64x64_S256x64_d0

/-- The region finds the batch regrouped four samples to a row, -/
theorem V_v0 (c : Dev nD) : (V m c main_v0 : S500000x128.Idx → EReal) = shapeCast S500000x128 (argX m c) shapeCasts_S2000000x32_S500000x128 := by
  dsimp only [V, V0]
  simp only [hostOps0, List.flatten_cons, List.flatten_nil, List.append_nil]
  repeat (first | after_results_simp | simp only [Matrix.cons_val])
  rfl

/-- and the three block-diagonal operands, each built from one weight argument. -/
theorem V_v8 (c : Dev nD) : (V m c main_v8 : S128x256.Idx → EReal) = bd0 (argW0 m c) := by
  dsimp only [V, V0]
  simp only [hostOps0, List.flatten_cons, List.flatten_nil, List.append_nil]
  repeat (first | after_results_simp | simp only [Matrix.cons_val])
  rfl

theorem V_v16 (c : Dev nD) : (V m c main_v16 : S256x256.Idx → EReal) = bd1 (argW1 m c) := by
  dsimp only [V, V0]
  simp only [hostOps0, List.flatten_cons, List.flatten_nil, List.append_nil]
  repeat (first | after_results_simp | simp only [Matrix.cons_val])
  rfl

theorem V_v24 (c : Dev nD) : (V m c main_v24 : S256x64.Idx → EReal) = bd2 (argW2 m c) := by
  dsimp only [V, V0]
  simp only [hostOps0, List.flatten_cons, List.flatten_nil, List.append_nil]
  repeat (first | after_results_simp | simp only [Matrix.cons_val])
  rfl

/-! ## The block-diagonal operands read at an entry -/

/-- The bf16 zero pattern denotes zero. -/
theorem bf16_zero : Ideal.ofBits .bf16 0x0000#16 = 0 := by simp [Ideal.ofBits, Ideal.ieee]

/-- Row 32 j + k, column 64 i + n of the first operand: the weight of input k into unit n when j = i, else zero. -/
theorem bd0_apply (w : FVec Ideal S64x32 .f32) (j i : Fin 4) (k : Fin 32) (n : Fin 64) :
    bd0 w (ix2 (⟨32 * j.val + k.val, by omega⟩ : Fin 128) (⟨64 * i.val + n.val, by omega⟩ : Fin 256))
      = if j = i then w (ix2 n k) else 0 := by
  unfold bd0
  dsimp only
  refine (Cert.Lib.BlockDiag.blockdiag4_apply _ _ _ _ j i k n _ _).trans ?_
  split
  · rw [truncf_apply]
    exact Cert.Lib.MatLayout.transpose_swap w _ k n
  · rw [broadcastInDim_apply _ _ _ _ ix0 (fun a => a.elim0), constant_apply]
    exact bf16_zero

/-- Row 64 j + n, column 64 i + mm of the second operand: the weight of unit n into unit mm when j = i, else zero. -/
theorem bd1_apply (w : FVec Ideal S64x64 .f32) (j i : Fin 4) (k : Fin 64) (n : Fin 64) :
    bd1 w (ix2 (⟨64 * j.val + k.val, by omega⟩ : Fin 256) (⟨64 * i.val + n.val, by omega⟩ : Fin 256))
      = if j = i then w (ix2 n k) else 0 := by
  unfold bd1
  dsimp only
  refine (Cert.Lib.BlockDiag.blockdiag4_apply _ _ _ _ j i k n _ _).trans ?_
  split
  · rw [truncf_apply]
    exact Cert.Lib.MatLayout.transpose_swap w _ k n
  · rw [broadcastInDim_apply _ _ _ _ ix0 (fun a => a.elim0), constant_apply]
    exact bf16_zero

/-- Row 64 j + mm, column 16 i + o of the third operand: the weight of unit mm into output o when j = i, else zero. -/
theorem bd2_apply (w : FVec Ideal S16x64 .f32) (j i : Fin 4) (k : Fin 64) (n : Fin 16) :
    bd2 w (ix2 (⟨64 * j.val + k.val, by omega⟩ : Fin 256) (⟨16 * i.val + n.val, by omega⟩ : Fin 64))
      = if j = i then w (ix2 n k) else 0 := by
  unfold bd2
  dsimp only
  refine (Cert.Lib.BlockDiag.blockdiag4_apply _ _ _ _ j i k n _ _).trans ?_
  split
  · rw [truncf_apply]
    exact Cert.Lib.MatLayout.transpose_swap w _ k n
  · rw [broadcastInDim_apply _ _ _ _ ix0 (fun a => a.elim0), constant_apply]
    exact bf16_zero

/-! ## The windows' blocks read at an entry -/

/-- Where the five index maps send grid point t: the batch window and the result window to block row t, the three
    weight windows to their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The four operand blocks at point t, each at its literal type. -/
abbrev xblk (c : Dev nD) (t : Fin cfg0.N) : FVec Ideal S5000x128 .f32 := iblk m c 0 t
abbrev b0blk (c : Dev nD) (t : Fin cfg0.N) : FVec Ideal S128x256 .bf16 := iblk m c 1 t
abbrev b1blk (c : Dev nD) (t : Fin cfg0.N) : FVec Ideal S256x256 .bf16 := iblk m c 2 t
abbrev b2blk (c : Dev nD) (t : Fin cfg0.N) : FVec Ideal S256x64 .bf16 := iblk m c 3 t

/-- Row p of the batch block at point t is packed row 5000 t + p, whose features 32 i .. 32 i + 31 are sample
    4 (5000 t + p) + i of the batch. -/
theorem xblk_apply (c : Dev nD) (t : Fin cfg0.N) (p : Fin 5000) (i : Fin 4) (k : Fin 32) :
    xblk m c t (ix2 p (⟨32 * i.val + k.val, by omega⟩ : Fin 128))
      = argX m c (ix2 (⟨4 * (5000 * t.val + p.val) + i.val, by have := t.isLt; have h : cfg0.N = 100 := N_0; omega⟩ : Fin 2000000) k) := by
  obtain ⟨e0, e1, -⟩ := idx_facts t
  have ht : t.val < 100 := by have := t.isLt; have h : cfg0.N = 100 := N_0; omega
  show (V m c main_v0 : S500000x128.Idx → EReal) (((cfg0.win 0).blk t).view.emb (ix2 p (⟨32 * i.val + k.val, by omega⟩ : Fin 128))) = _
  rw [V_v0]
  refine shapeCast_apply _ _ _ _ ?_
  rw [Shape.rowMajor_val_two, Shape.rowMajor_val_two]
  show (4 * (5000 * t.val + p.val) + i.val) * 32 + k.val
    = (win0_0.index t (0 : Fin 2) * 5000 + 1 * p.val) * 128 + (win0_0.index t (1 : Fin 2) * 128 + 1 * (32 * i.val + k.val))
  rw [e0, e1]; omega

/-- The weight windows' one block is the whole operand. -/
theorem b0blk_eq (c : Dev nD) (t : Fin cfg0.N) : b0blk m c t = bd0 (argW0 m c) := by
  obtain ⟨-, -, e0, e1, -⟩ := idx_facts t
  funext y
  show (V m c main_v8 : S128x256.Idx → EReal) (((cfg0.win 1).blk t).view.emb y) = _
  rw [V_v8]
  congr 1; funext a; apply Fin.ext
  match a with
  | ⟨0, _⟩ => show win0_1.index t (0 : Fin 2) * 128 + 1 * (y 0).val = (y 0).val; rw [e0]; omega
  | ⟨1, _⟩ => show win0_1.index t (1 : Fin 2) * 256 + 1 * (y 1).val = (y 1).val; rw [e1]; omega
theorem b1blk_eq (c : Dev nD) (t : Fin cfg0.N) : b1blk m c t = bd1 (argW1 m c) := by
  obtain ⟨-, -, -, -, e0, e1, -⟩ := idx_facts t
  funext y
  show (V m c main_v16 : S256x256.Idx → EReal) (((cfg0.win 2).blk t).view.emb y) = _
  rw [V_v16]
  congr 1; funext a; apply Fin.ext
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega
theorem b2blk_eq (c : Dev nD) (t : Fin cfg0.N) : b2blk m c t = bd2 (argW2 m c) := by
  obtain ⟨-, -, -, -, -, -, e0, e1, -⟩ := idx_facts t
  funext y
  show (V m c main_v24 : S256x64.Idx → EReal) (((cfg0.win 3).blk t).view.emb y) = _
  rw [V_v24]
  congr 1; funext a; apply Fin.ext
  match a with
  | ⟨0, _⟩ => show win0_3.index t (0 : Fin 2) * 256 + 1 * (y 0).val = (y 0).val; rw [e0]; omega
  | ⟨1, _⟩ => show win0_3.index t (1 : Fin 2) * 64 + 1 * (y 1).val = (y 1).val; rw [e1]; omega

/-! ## The region's result array -/

/-- The packed result: row r, column 16 i + o is output o of the layers on sample 4 r + i. -/
def packedOut (x : FVec Ideal S2000000x32 .f32) (w0 : FVec Ideal S64x32 .f32) (w1 : FVec Ideal S64x64 .f32)
    (w2 : FVec Ideal S16x64 .f32) : S500000x64.Idx → EReal := fun y =>
  Cert.Mlp.row (fun k => x (ix2 (⟨4 * (y 0).val + (y 1).val / 16, by have := idx2_lt0 y; have := idx2_lt1 y; omega⟩ : Fin 2000000) k))
    w0 w1 w2 ⟨(y 1).val % 16, Nat.mod_lt _ (by decide)⟩

theorem hz : (![0, 0] : Fin 2 → Nat) = fun _ => 0 := funext fun a => by fin_cases a <;> rfl

/-- What point t writes back is block t of the packed result. -/
theorem flushed_eq (c : Dev nD) (t : Fin cfg0.N) :
    (dats m 0 c).flushed 4 t
      = ((cfg0.win 4).blk t).view.read (Elt Ideal) (packedOut (argX m c) (argW0 m c) (argW1 m c) (argW2 m c)) := by
  show (cfg0.win 4).cut (grid0.coords t) ((dats m 0 c).after 4 t) = _
  rw [after4]
  unfold outBlk
  rw [View.canon_unit_zero hz]
  simp only [View.ld_unit_zero (S := S5000x128) hz, View.ld_unit_zero (S := S128x256) hz,
    View.ld_unit_zero (S := S256x256) hz, View.ld_unit_zero (S := S256x64) hz]
  obtain ⟨-, -, -, -, -, -, -, -, e0, e1⟩ := idx_facts t
  have ht : t.val < 100 := by have := t.isLt; have h : cfg0.N = 100 := N_0; omega
  funext j
  obtain ⟨p, q, rfl⟩ : ∃ (p : Fin 5000) (q : Fin 64), j = ix2 p q := ⟨j 0, j 1, eq_ix2 j⟩
  obtain ⟨i, o, rfl⟩ : ∃ (i : Fin 4) (o : Fin 16), q = ⟨16 * i.val + o.val, by omega⟩ :=
    ⟨⟨q.val / 16, by omega⟩, ⟨q.val % 16, Nat.mod_lt _ (by decide)⟩, Fin.ext (by show q.val = 16 * (q.val / 16) + q.val % 16; omega)⟩
  show Gen.k0_pay1 (F := Ideal) (xblk m c t) (b0blk m c t) (b1blk m c t) (b2blk m c t) (ix2 p (⟨16 * i.val + o.val, by omega⟩ : Fin 64))
    = packedOut (argX m c) (argW0 m c) (argW1 m c) (argW2 m c) (((cfg0.win 4).blk t).view.emb (ix2 p (⟨16 * i.val + o.val, by omega⟩ : Fin 64)))
  refine (Cert.KernelIdeal.Packed.pay_apply (xblk m c t) (b0blk m c t) (b1blk m c t) (b2blk m c t)
    (argW0 m c) (argW1 m c) (argW2 m c) ?_ ?_ ?_ p i o).trans ?_
  · intro j' i' k n; rw [b0blk_eq]; exact bd0_apply _ j' i' k n
  · intro j' i' n mm; rw [b1blk_eq]; exact bd1_apply _ j' i' n mm
  · intro j' i' mm o'; rw [b2blk_eq]; exact bd2_apply _ j' i' mm o'
  · unfold packedOut
    have hr : ((((cfg0.win 4).blk t).view.emb (ix2 p (⟨16 * i.val + o.val, by omega⟩ : Fin 64))) 0).val = 5000 * t.val + p.val := by
      show win0_4.index t (0 : Fin 2) * 5000 + 1 * p.val = _; rw [e0]; omega
    have hc : ((((cfg0.win 4).blk t).view.emb (ix2 p (⟨16 * i.val + o.val, by omega⟩ : Fin 64))) 1).val = 16 * i.val + o.val := by
      show win0_4.index t (1 : Fin 2) * 64 + 1 * (16 * i.val + o.val) = _; rw [e1]; omega
    congr 1
    · funext k
      rw [xblk_apply]
      congr 2; apply Fin.ext
      show 4 * (5000 * t.val + p.val) + i.val = 4 * _ + _ / 16
      rw [hr, hc]; omega
    · apply Fin.ext
      show o.val = _ % 16
      rw [hc]; omega

/-- An index is in point t's block of the result array iff each coordinate is in the block's range. -/
theorem mem_blk (t : Fin cfg0.N) (i : S500000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v25).slice (win0_4.rect t)).set ↔ _
  rw [View.set_slice_whole, Rect.mem_set_unit]
  exact Iff.rfl

/-- Every packed row r lies in the block of point r / 5000, which writes back. -/
theorem cover (i : S500000x64.Idx) : ∃ t : Fin cfg0.N, (cfg0.win 4).flush t = true ∧ i ∈ ((cfg0.win 4).blk t).view.set := by
  have h0 : (i 0).val < 500000 := idx2_lt0 i
  have h1 : (i 1).val < 64 := idx2_lt1 i
  have hN : cfg0.N = 100 := N_0
  refine ⟨⟨(i 0).val / 5000, by omega⟩, flush0_4 _, ?_⟩
  obtain ⟨-, -, -, -, -, -, -, -, e0, e1⟩ := idx_facts ⟨(i 0).val / 5000, by omega⟩
  rw [mem_blk]
  intro a
  match a with
  | ⟨0, _⟩ =>
    show win0_4.index ⟨(i 0).val / 5000, _⟩ (0 : Fin 2) * 5000 ≤ (i 0).val ∧ (i 0).val < win0_4.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, _⟩ (1 : Fin 2) * 64 ≤ (i 1).val ∧ (i 1).val < win0_4.index ⟨(i 0).val / 5000, _⟩ (1 : Fin 2) * 64 + 64
    rw [e1]; omega

/-- After the run the region's result array is the packed result of the arguments. -/
theorem final (c : Dev nD) :
    (dats m 0 c).arrAt 4 cfg0.N = packedOut (argX m c) (argW0 m c) (argW1 m c) (argW2 m c) :=
  (dats m 0 c).arrAt_eq_of_cover 4 _ (fun t _ => flushed_eq m c t) cover

/-! ## The closing reshape, and the run -/

/-- Regrouping the packed result one sample to a row gives the three layers applied to every row of the batch. -/
theorem unpack (x : FVec Ideal S2000000x32 .f32) (w0 : FVec Ideal S64x32 .f32) (w1 : FVec Ideal S64x64 .f32)
    (w2 : FVec Ideal S16x64 .f32) :
    shapeCast S2000000x16 (packedOut x w0 w1 w2) shapeCasts_S500000x64_S2000000x16 = Cert.Mlp.mlp x w0 w1 w2 := by
  funext j
  obtain ⟨b, o, rfl⟩ : ∃ (b : Fin 2000000) (o : Fin 16), j = ix2 b o := ⟨j 0, j 1, eq_ix2 j⟩
  rw [Cert.Mlp.mlp_ix2]
  refine (shapeCast_apply _ _ _ (ix2 (⟨b.val / 4, by omega⟩ : Fin 500000) (⟨16 * (b.val % 4) + o.val, by omega⟩ : Fin 64)) ?_).trans ?_
  · rw [Shape.rowMajor_val_two, Shape.rowMajor_val_two]
    show b.val / 4 * 64 + (16 * (b.val % 4) + o.val) = b.val * 16 + o.val
    omega
  · unfold packedOut
    congr 1
    · funext k; congr 2; apply Fin.ext
      show 4 * (b.val / 4) + (16 * (b.val % 4) + o.val) / 16 = b.val
      omega
    · apply Fin.ext
      show (16 * (b.val % 4) + o.val) % 16 = o.val
      omega

/-- What the closing reshape leaves in the program's result. -/
theorem tail_result (c : Dev nD) :
    (Pipeline.afterTail₀ cfgs (dats m) 0 (V0 m) [hostOps1] c main_v26 : S2000000x16.Idx → EReal)
      = Cert.Mlp.mlp (argX m c) (argW0 m c) (argW1 m c) (argW2 m c) := by
  unfold Pipeline.afterTail₀
  show StableHlo.after hostOps1 _ (Proc.devRef .tc main_v26) = _
  after_results
  rw [← unpack, ← final m c]
  exact congrArg (fun z => shapeCast S2000000x16 z shapeCasts_S500000x64_S2000000x16)
    (Pipeline.withArrays_arr spec0 launch0.win.arr_inj c _ _ 4)

/-- Every weakly fair execution of the idealized kernel program terminates with its result at the three layers applied
    to every row of the batch, and its arguments as launched. -/
theorem run_value : θ_run defs (onTc (τ := τ) (main (F := Ideal))) ⟨m, fun _ => 0, ρ⟩ (fun r => ∀ c : Dev nD,
      r.2.mem ((c.tc : Thread nD τ).loc main_v26) = Cert.Mlp.mlp (argX m c) (argW0 m c) (argW1 m c) (argW2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v26 (Pipeline.mem_restRefs_of main_v26 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Val

end
-- ==== Proof.RefIsMlp.lean ====
/-
  The reference computes, row by row, the three layers of the specification: each of its three contractions is the sum
  over the shared feature axis of products of an activation and a weight indexed [out, in], and its rectifier is the
  maximum with the zero splat.
-/
import proofs.«410424_j22771916603452_3_alg».proof.Proof.Gen.ReferenceIdeal.Read
import proofs.«410424_j22771916603452_3_alg».proof.Proof.MlpSpec

noncomputable section

open scoped BigOperators

namespace Cert.ReferenceIdeal.IsMlp

open Cert.ReferenceIdeal Cert.ReferenceIdeal.Read Idealize.ShloMosaic Idealize.ShloMosaic.ValueIdx

/-- The first zero splat, read at any index, is 0. -/
theorem zero0_apply (i : S2000000x64.Idx) : val_main_call0_v0 (F := Ideal) i = 0 := by
  rw [val_main_call0_v0_apply, val_main_call0_cst_apply, Ideal.ofBits_def, Ideal.ofBits_zero_f32]

/-- The second zero splat, read at any index, is 0. -/
theorem zero1_apply (i : S2000000x64.Idx) : val_main_call1_v0 (F := Ideal) i = 0 := by
  rw [val_main_call1_v0_apply, val_main_call1_cst_apply, Ideal.ofBits_def, Ideal.ofBits_zero_f32]

/-- First contraction: at (b, n) the activation is read at (b, k). -/
theorem lidx0 (b : Fin 2000000) (n : Fin 64) (k : Fin 32) : lidx_main_v0 (ix2 b n) k = ix2 b k :=
  funext fun a => Fin.ext (by match a with | ⟨0, _⟩ => rfl | ⟨1, _⟩ => rfl)
/-- First contraction: at (b, n) the weight is read at (n, k). -/
theorem ridx0 (b : Fin 2000000) (n : Fin 64) (k : Fin 32) : ridx_main_v0 (ix2 b n) k = ix2 n k :=
  funext fun a => Fin.ext (by match a with | ⟨0, _⟩ => rfl | ⟨1, _⟩ => rfl)
/-- Second contraction: at (b, mm) the activation is read at (b, n). -/
theorem lidx2 (b : Fin 2000000) (mm : Fin 64) (n : Fin 64) : lidx_main_v2 (ix2 b mm) n = ix2 b n :=
  funext fun a => Fin.ext (by match a with | ⟨0, _⟩ => rfl | ⟨1, _⟩ => rfl)
/-- Second contraction: at (b, mm) the weight is read at (mm, n). -/
theorem ridx2 (b : Fin 2000000) (mm : Fin 64) (n : Fin 64) : ridx_main_v2 (ix2 b mm) n = ix2 mm n :=
  funext fun a => Fin.ext (by match a with | ⟨0, _⟩ => rfl | ⟨1, _⟩ => rfl)
/-- Third contraction: at (b, o) the activation is read at (b, mm). -/
theorem lidx4 (b : Fin 2000000) (o : Fin 16) (mm : Fin 64) : lidx_main_v4 (ix2 b o) mm = ix2 b mm :=
  funext fun a => Fin.ext (by match a with | ⟨0, _⟩ => rfl | ⟨1, _⟩ => rfl)
/-- Third contraction: at (b, o) the weight is read at (o, mm). -/
theorem ridx4 (b : Fin 2000000) (o : Fin 16) (mm : Fin 64) : ridx_main_v4 (ix2 b o) mm = ix2 o mm :=
  funext fun a => Fin.ext (by match a with | ⟨0, _⟩ => rfl | ⟨1, _⟩ => rfl)

/-- The rectified first contraction at (b, n) is the specification's first hidden layer of row b, unit n. -/
theorem v1_eq (x : FVec Ideal S2000000x32 .f32) (w0 : FVec Ideal S64x32 .f32) (b : Fin 2000000) (n : Fin 64) :
    val_main_v1 (F := Ideal) x w0 (ix2 b n) = Cert.Mlp.hid0 (fun k => x (ix2 b k)) w0 n := by
  rw [val_main_v1_apply, val_main_v0_apply, zero0_apply, Ideal.maximumf_def]
  unfold Cert.Mlp.hid0
  congr 1
  refine Finset.sum_congr rfl fun k _ => ?_
  rw [lidx0, ridx0]

/-- The rectified second contraction at (b, mm) is the specification's second hidden layer of row b, unit mm. -/
theorem v3_eq (x : FVec Ideal S2000000x32 .f32) (w0 : FVec Ideal S64x32 .f32) (w1 : FVec Ideal S64x64 .f32)
    (b : Fin 2000000) (mm : Fin 64) :
    val_main_v3 (F := Ideal) x w0 w1 (ix2 b mm) = Cert.Mlp.hid1 (fun k => x (ix2 b k)) w0 w1 mm := by
  rw [val_main_v3_apply, val_main_v2_apply, zero1_apply, Ideal.maximumf_def]
  unfold Cert.Mlp.hid1
  congr 1
  refine Finset.sum_congr rfl fun n _ => ?_
  rw [lidx2, ridx2, v1_eq]

/-- The reference's last stage is the specification of its four arguments. -/
theorem ref_eq (x : FVec Ideal S2000000x32 .f32) (w0 : FVec Ideal S64x32 .f32) (w1 : FVec Ideal S64x64 .f32)
    (w2 : FVec Ideal S16x64 .f32) :
    val_main_v4 (F := Ideal) x w0 w1 w2 = Cert.Mlp.mlp x w0 w1 w2 := by
  funext i
  obtain ⟨b, o, rfl⟩ : ∃ (b : Fin 2000000) (o : Fin 16), i = ix2 b o := ⟨i 0, i 1, eq_ix2 i⟩
  rw [Cert.Mlp.mlp_ix2, val_main_v4_apply]
  unfold Cert.Mlp.row
  refine Finset.sum_congr rfl fun mm _ => ?_
  rw [lidx4, ridx4, v3_eq]

end Cert.ReferenceIdeal.IsMlp

end
-- ==== Proof.lean ====
/-
  The five claims about the packed three-layer kernel and its reference.

  Both programs compute, for every row of a 2000000 x 32 batch, three bias-free linear layers with a rectifier after
  the first two. The reference contracts each row with the weight matrices directly. The kernel program packs four
  consecutive rows into one row of 128 features and multiplies by block-diagonal operands holding four copies of each
  transposed weight matrix; over the extended reals a zero entry times anything is zero, so a packed row's four samples
  never mix, the rectifier of zero is zero, and every entry of the result is the same finite sum of products as the
  reference's — no finiteness of the inputs is used. The format changes to sixteen-bit floats are the identity at the
  ideal values, and the idealization rewrote nothing, so the preservation claim is empty.

  The three frames: the kernel program (at both float instances) runs its host lines, its one region — whose body loads
  four whole operand blocks and stores one whole result block at each of the 100 grid points — and the closing reshape,
  and none of these writes an argument; the reference is its generated run.
-/
import proofs.«410424_j22771916603452_3_alg».proof.Defs
import proofs.«410424_j22771916603452_3_alg».proof.Proof.Gen.Kernel
import proofs.«410424_j22771916603452_3_alg».proof.Proof.Gen.Kernel.Skeleton
import proofs.«410424_j22771916603452_3_alg».proof.Proof.Gen.Kernel.Launch
import proofs.«410424_j22771916603452_3_alg».proof.Proof.Gen.Kernel.Points
import proofs.«410424_j22771916603452_3_alg».proof.Proof.Gen.KernelIdeal
import proofs.«410424_j22771916603452_3_alg».proof.Proof.Gen.KernelIdeal.Skeleton
import proofs.«410424_j22771916603452_3_alg».proof.Proof.Gen.KernelIdeal.Launch
import proofs.«410424_j22771916603452_3_alg».proof.Proof.Gen.KernelIdeal.Points
import proofs.«410424_j22771916603452_3_alg».proof.Proof.Gen.ReferenceIdeal
import proofs.«410424_j22771916603452_3_alg».proof.Proof.Gen.ReferenceIdeal.Run
import proofs.«410424_j22771916603452_3_alg».proof.Proof.Gen.ReferenceIdeal.Read
import proofs.«410424_j22771916603452_3_alg».proof.Proof.Gen.Pre_finite_inputs
import proofs.«410424_j22771916603452_3_alg».proof.Proof.KernelFrame
import proofs.«410424_j22771916603452_3_alg».proof.Proof.KernelIdealFrame
import proofs.«410424_j22771916603452_3_alg».proof.Proof.KernelIdealValue
import proofs.«410424_j22771916603452_3_alg».proof.Proof.RefIsMlp
import Idealize.ShloMosaic.Adequacy
import Idealize.ShloMosaic.Init

noncomputable section

namespace Cert.Proof

open Idealize.ShloMosaic Idealize.SL.Sem

/-- The kernel program as printed: it runs to the end and leaves its four arguments as launched. -/
theorem frame_k : Cert.frame_Kernel :=
  fun m ρ _ => Cert.Kernel.Hand.frame m ρ

/-- The same of the idealized kernel program. -/
theorem frame_ki : Cert.frame_KernelIdeal :=
  fun m ρ _ => Cert.KernelIdeal.Hand.frame m ρ

/-- The reference is host lines only: its run, with the result forgotten. -/
theorem frame_ri : Cert.frame_ReferenceIdeal :=
  fun m ρ _ => (θ_run Cert.ReferenceIdeal.defs _ _).mono (fun _ h c => (h c).2)
    (Cert.ReferenceIdeal.Value.run (F := Ideal) m ρ)

/-- Both idealized programs end with the three layers applied to every row of the batch they were launched on. -/
theorem algebraic : Cert.algebraic_KernelIdeal_ReferenceIdeal := by
  intro m ρ m' ρ' _ hagree
  refine ⟨fun c => Cert.Mlp.mlp (Cert.KernelIdeal.Val.argX m c) (Cert.KernelIdeal.Val.argW0 m c)
    (Cert.KernelIdeal.Val.argW1 m c) (Cert.KernelIdeal.Val.argW2 m c), Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.IsMlp.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
